-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x10000 : Shape := ⟨2, ![16384, 10000]⟩
abbrev S10000x128 : Shape := ⟨2, ![10000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x10000 : S_.BroadcastsInDim S16384x10000 (![] : Fin 0 → Fin S16384x10000.rank)
  reducesTo_S16384x10000_S_d0_1 : S16384x10000.ReducesTo [0, 1] S_
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S16384x128 .f32) (main_arg1 : FVec F S16384x10000 .f32) (main_arg2 : FVec F S10000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x10000 .f32 := Host.absf main_arg1
  let main_cst_0 : FVec F S_ .f32 := constant S_ .f32 0x7F800000#32
  let main_v5 : FVec F S16384x10000 .f32 := broadcastInDim S16384x10000 ![] bcast_S_S16384x10000 main_cst_0
  let main_v6 : IVec S16384x10000 1 := cmpf .olt main_v4 main_v5
  let main_c_1 : IVec S_ 1 := constantI S_ 1 1#1
  let main_v7 : IVec S_ 1 := (fun x v => Host.reduce IntOp.andi x v reducesTo_S16384x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  main_v13
-- ==== Kernel.lean ====
abbrev S16384x128 : Shape := ⟨2, ![16384, 128]⟩
abbrev S16384x10000 : Shape := ⟨2, ![16384, 10000]⟩
abbrev S10000x128 : Shape := ⟨2, ![10000, 128]⟩
abbrev S1x10000 : Shape := ⟨2, ![1, 10000]⟩
abbrev S128x10000 : Shape := ⟨2, ![128, 10000]⟩
abbrev S128x128 : Shape := ⟨2, ![128, 128]⟩
abbrev S10000 : Shape := ⟨1, ![10000]⟩
abbrev S10000x1 : Shape := ⟨2, ![10000, 1]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x10000, .f32⟩
  | .hbm, ⟨2, _⟩ => ⟨S10000x128, .f32⟩
  | .hbm, ⟨3, _⟩ => ⟨S10000x128, .f32⟩
  | .hbm, ⟨4, _⟩ => ⟨S1x10000, .f32⟩
  | .hbm, ⟨5, _⟩ => ⟨S10000x1, .f32⟩
  | .hbm, ⟨6, _⟩ => ⟨S_, .f32⟩
  | .hbm, ⟨7, _⟩ => ⟨S10000x1, .f32⟩
  | .hbm, ⟨8, _⟩ => ⟨S10000x1, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .local _ .vmem, ⟨0, _⟩ => ⟨S128x10000, .f32⟩
  | .local _ .vmem, ⟨1, _⟩ => ⟨S128x10000, .f32⟩
  | .local _ .vmem, ⟨2, _⟩ => ⟨S128x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S1x10000, .f32⟩
  | .local _ .vmem, ⟨7, _⟩ => ⟨S10000x128, .bf16⟩
  | .local _ .vmem, ⟨8, _⟩ => ⟨S10000x128, .f32⟩
  | .local _ .vmem, ⟨9, _⟩ => ⟨S1x10000, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v23 : BitVec 1 := Scalar.cmpi .eq arg0 c127_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S128x10000_S128x10000_0_0 : ∀ a, (![0, 0] : Fin 2 → Nat) a + S128x10000.size a ≤ S128x10000.size a
  h_S128x10000 : 0 < S128x10000.numel
  inb_S128x128_S128x128_0_0 : ∀ a, (![0, 0] : Fin 2 → Nat) a + S128x128.size a ≤ S128x128.size a
  h_S128x128 : 0 < S128x128.numel
  reduces_S128x10000_S10000 : S128x10000.Reduces [0] S10000
  shapeCasts_S10000_S1x10000 : S10000.ShapeCasts S1x10000
  transposes_S1x10000_S10000x1_1_0 : S1x10000.Transposes [1, 0] S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S128x10000_S10000x128_S128x128_1_0_0_1_n_n_wf : DotDims.WF S128x10000 S10000x128 S128x128 [1] [0] [0] [1] [] []
  dot_S128x10000_S128x128_S10000x128_0_0_1_1_n_n_wf : DotDims.WF S128x10000 S128x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S16384x10000.size a
  hwx0_0 : ∀ i : grid0.Coords, EltTy.bits .f32 = 32 ∨ (Rect.block (s := S16384x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S16384x128.size a
  hwx0_1 : ∀ i : grid0.Coords, EltTy.bits .f32 = 32 ∨ (Rect.block (s := S16384x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10000.size a ≤ S1x10000.size a
  hwx0_4 : ∀ i : grid0.Coords, EltTy.bits .f32 = 32 ∨ (Rect.block (s := S1x10000) S1x10000.size (cc0_transform_4 i) (hinb0_4 i)).WholeWords (EltTy.packing .f32)

variable [Facts₀]

def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x10000_S128x128_S10000x128_0_0_1_1_n_n : DotDims S128x10000 S128x128 S10000x128 where
  lhsContracting := [0]
  rhsContracting := [0]
  lhsNonContracting := [1]
  rhsNonContracting := [1]
  lhsBatch := []
  rhsBatch := []
  wf := dot_S128x10000_S128x128_S10000x128_0_0_1_1_n_n_wf

abbrev win0_0 : Pipeline.Window sig grid0 :=
  Pipeline.Window.ofSpec (Memref.whole main_arg1) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S10000x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x10000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x10000 : Shape := ⟨2, ![16384, 10000]⟩
abbrev S10000x128 : Shape := ⟨2, ![10000, 128]⟩
abbrev S10000x16384 : Shape := ⟨2, ![10000, 16384]⟩
abbrev S_ : Shape := ⟨0, ![]⟩
abbrev S10000 : Shape := ⟨1, ![10000]⟩
abbrev S10000x1 : Shape := ⟨2, ![10000, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x10000, .f32⟩
  | .hbm, ⟨2, _⟩ => ⟨S10000x128, .f32⟩
  | .hbm, ⟨3, _⟩ => ⟨S16384x128, .f32⟩
  | .hbm, ⟨4, _⟩ => ⟨S16384x128, .f32⟩
  | .hbm, ⟨5, _⟩ => ⟨S10000x16384, .f32⟩
  | .hbm, ⟨6, _⟩ => ⟨S10000x128, .f32⟩
  | .hbm, ⟨7, _⟩ => ⟨S10000x16384, .f32⟩
  | .hbm, ⟨8, _⟩ => ⟨S_, .f32⟩
  | .hbm, ⟨9, _⟩ => ⟨S10000, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S16384x10000_S10000x16384_1_0 : S16384x10000.Transposes [1, 0] S10000x16384
  reducesTo_S10000x16384_S10000_d1 : S10000x16384.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S16384x10000_S10000x128_S16384x128_1_0_0_1_n_n_wf : DotDims.WF S16384x10000 S10000x128 S16384x128 [1] [0] [0] [1] [] []
  dot_S10000x16384_S16384x128_S10000x128_1_0_0_1_n_n_wf : DotDims.WF S10000x16384 S16384x128 S10000x128 [1] [0] [0] [1] [] []

variable [Facts₀]

def dot_S16384x10000_S10000x128_S16384x128_1_0_0_1_n_n : DotDims S16384x10000 S10000x128 S16384x128 where
  lhsContracting := [1]
  rhsContracting := [0]
  lhsNonContracting := [0]
  rhsNonContracting := [1]
  lhsBatch := []
  rhsBatch := []
  wf := dot_S16384x10000_S10000x128_S16384x128_1_0_0_1_n_n_wf
def dot_S10000x16384_S16384x128_S10000x128_1_0_0_1_n_n : DotDims S10000x16384 S16384x128 S10000x128 where
  lhsContracting := [1]
  rhsContracting := [0]
  lhsNonContracting := [0]
  rhsNonContracting := [1]
  lhsBatch := []
  rhsBatch := []
  wf := dot_S10000x16384_S16384x128_S10000x128_1_0_0_1_n_n_wf

class Facts : Prop extends Facts₀ where

variable [Facts]
-- ==== Proof.Pieces.lean ====
/-
  What each kind of grid point leaves in the kernel's three carried buffers and, at the last point, in its two outputs,
  as plain functions of what the point found — for any reading of the floats.

  The first point caches the centres, clears both accumulators and then accumulates into the cleared buffers; every later
  point accumulates into what the point before left; the last point also copies the two accumulators out. Every store
  covers its whole buffer and every load reads a whole buffer, so "the last store's value" is all there is to read back.
-/
import proofs.«153631_j22136261443658_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

theorem sA0 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : cond0_0 i) (hc1 : ¬cond0_1 i) (x0 : Vec F S128x10000 .f32) (x1 : Vec F S128x128 .f32) (x2 : Vec F S10000x128 .f32) :
    sout0_A_0 c i arg1 harg1 arg2 harg2 arg3 harg3 arg4 harg4 arg5 harg5 arg6 harg6 arg7 harg7 arg8 harg8 hc0 hc1 x0 x1 x2 = k0_pay1 x2 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz]

theorem sA1 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : cond0_0 i) (hc1 : ¬cond0_1 i) (x0 : Vec F S128x10000 .f32) (x1 : Vec F S128x128 .f32) (x2 : Vec F S10000x128 .f32) :
    sout0_A_1 c i arg1 harg1 arg2 harg2 arg3 harg3 arg4 harg4 arg5 harg5 arg6 harg6 arg7 harg7 arg8 harg8 hc0 hc1 x0 x1 x2 = k0_pay4 x0 (k0_pay1 x2) x1 k0_pay2 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S10000x128) hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz, View.readCov_unit_zero (S := S10000x128) _ hz, View.readCov_unit_zero (S := S1x10000) _ hz]

theorem sA2 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : cond0_0 i) (hc1 : ¬cond0_1 i) (x0 : Vec F S128x10000 .f32) (x1 : Vec F S128x128 .f32) (x2 : Vec F S10000x128 .f32) :
    sout0_A_2 c i arg1 harg1 arg2 harg2 arg3 harg3 arg4 harg4 arg5 harg5 arg6 harg6 arg7 harg7 arg8 harg8 hc0 hc1 x0 x1 x2 = k0_pay5 x0 k0_pay3 := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x10000) hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz, View.readCov_unit_zero (S := S10000x128) _ hz, View.readCov_unit_zero (S := S1x10000) _ hz]

theorem sB1 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : ¬cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    sout0_B_1 c i arg1 harg1 arg2 harg2 arg3 harg3 arg4 harg4 arg5 harg5 arg6 harg6 arg7 harg7 arg8 harg8 hc0 hc1 x0 x1 x2 xs0 xs1 xs2 = k0_pay4 x0 xs0 x1 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz]

theorem sB2 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : ¬cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    sout0_B_2 c i arg1 harg1 arg2 harg2 arg3 harg3 arg4 harg4 arg5 harg5 arg6 harg6 arg7 harg7 arg8 harg8 hc0 hc1 x0 x1 x2 xs0 xs1 xs2 = k0_pay5 x0 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz]

theorem sC1 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    sout0_C_1 c i arg1 harg1 arg2 harg2 arg3 harg3 arg4 harg4 arg5 harg5 arg6 harg6 arg7 harg7 arg8 harg8 hc0 hc1 x0 x1 x2 xs0 xs1 xs2 = k0_pay4 x0 xs0 x1 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz]

theorem sC2 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    sout0_C_2 c i arg1 harg1 arg2 harg2 arg3 harg3 arg4 harg4 arg5 harg5 arg6 harg6 arg7 harg7 arg8 harg8 hc0 hc1 x0 x1 x2 xs0 xs1 xs2 = k0_pay5 x0 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz]

theorem oC3 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    out0_C_3 c i arg1 harg1 arg2 harg2 arg3 harg3 arg4 harg4 arg5 harg5 arg6 harg6 arg7 harg7 arg8 harg8 hc0 hc1 x0 x1 x2 xs0 xs1 xs2 = k0_pay4 x0 xs0 x1 xs1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz, View.readCov_unit_zero (S := S10000x128) _ hz, View.readCov_unit_zero (S := S1x10000) _ hz]

theorem oC4 (c : Dev nD) (i : grid0.Coords) (arg1 : Memref sig .tc .vmem S128x10000 .f32) (harg1 : arg1.IsWhole) (arg2 : Memref sig .tc .vmem S128x128 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S1x10000 .f32) (harg5 : arg5.IsWhole) (arg6 : Memref sig .tc .vmem S10000x128 .bf16) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i) (x0 : Vec F S128x10000 .f32) (x1 : Vec F S128x128 .f32) (x2 : Vec F S10000x128 .f32) (xs0 : Vec F S10000x128 .bf16) (xs1 : Vec F S10000x128 .f32) (xs2 : Vec F S1x10000 .f32) :
    out0_C_4 c i arg1 harg1 arg2 harg2 arg3 harg3 arg4 harg4 arg5 harg5 arg6 harg6 arg7 harg7 arg8 harg8 hc0 hc1 x0 x1 x2 xs0 xs1 xs2 = k0_pay5 x0 xs2 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg1.read_unread, harg2.read_unread, harg3.read_unread, harg6.read_unread, harg7.read_unread, harg8.read_unread, View.ld_unit_zero (S := S128x10000) hz, View.ld_unit_zero (S := S128x128) hz, View.ld_unit_zero (S := S10000x128) hz, View.ld_unit_zero (S := S1x10000) hz, View.readCov_unit_zero (S := S10000x128) _ hz, View.readCov_unit_zero (S := S1x10000) _ hz]

end Cert.KernelIdeal.Acc

end
-- ==== Proof.Payload.lean ====
/-
  What one grid point adds, read index by index at the extended reals.

  At a point the kernel holds a block of 128 rows of the weights (`v3`, 128 × 10000), the matching rows of the embeddings
  (`v7`, 128 × 128) and the centres (`v5`, 10000 × 128). It forms the block's residuals by a matrix product contracted over the
  classes, and adds to the running gradient a second product that contracts the SAME weight block with the residuals over
  the block's ROWS (the left operand is read transposed). With exact arithmetic a change of float format is the identity
  and a product into a zero accumulator is the plain sum, so at `(c, d)`
      new gradient = old + ∑ r, v3 r c · ((∑ k, v3 r k · v5 k d) − v7 r d),
      new count    = old + ∑ r, v3 r c.
-/
import proofs.«153631_j22136261443658_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Acc

open Idealize.ShloMosaic Idealize.ShloMosaic.ValueIdx
open Cert.KernelIdeal Cert.KernelIdeal.Gen

/-! ## The two products' operand indices, axis by axis -/

theorem lhs_gather_0 (i : S128x128.Idx) (q : dot_S128x10000_S10000x128_S128x128_1_0_0_1_n_n.contr.Idx) :
    (dot_S128x10000_S10000x128_S128x128_1_0_0_1_n_n.lhsIdx i q 0).val = (i 0).val := by
  unfold DotDims.lhsIdx
  rw [dif_neg (show ¬(0 : Fin S128x10000.rank) ∈ dot_S128x10000_S10000x128_S128x128_1_0_0_1_n_n.lhsBatch by decide), dif_pos (show (0 : Fin S128x10000.rank) ∈ dot_S128x10000_S10000x128_S128x128_1_0_0_1_n_n.lhsNonContracting by decide)]
  rfl
theorem lhs_gather_1 (i : S128x128.Idx) (q : dot_S128x10000_S10000x128_S128x128_1_0_0_1_n_n.contr.Idx) :
    (dot_S128x10000_S10000x128_S128x128_1_0_0_1_n_n.lhsIdx i q 1).val = (q ⟨0, by decide⟩).val :=
  dot_S128x10000_S10000x128_S128x128_1_0_0_1_n_n.lhsIdx_val_of_single rfl i q
theorem rhs_gather_0 (i : S128x128.Idx) (q : dot_S128x10000_S10000x128_S128x128_1_0_0_1_n_n.contr.Idx) :
    (dot_S128x10000_S10000x128_S128x128_1_0_0_1_n_n.rhsIdx i q 0).val = (q ⟨0, by decide⟩).val :=
  dot_S128x10000_S10000x128_S128x128_1_0_0_1_n_n.rhsIdx_val_of_single rfl i q
theorem rhs_gather_1 (i : S128x128.Idx) (q : dot_S128x10000_S10000x128_S128x128_1_0_0_1_n_n.contr.Idx) :
    (dot_S128x10000_S10000x128_S128x128_1_0_0_1_n_n.rhsIdx i q 1).val = (i 1).val := by
  unfold DotDims.rhsIdx
  rw [dif_neg (show ¬(1 : Fin S10000x128.rank) ∈ dot_S128x10000_S10000x128_S128x128_1_0_0_1_n_n.rhsBatch by decide), dif_pos (show (1 : Fin S10000x128.rank) ∈ dot_S128x10000_S10000x128_S128x128_1_0_0_1_n_n.rhsNonContracting by decide)]
  rfl

theorem lhs_scatter_0 (i : S10000x128.Idx) (q : dot_S128x10000_S128x128_S10000x128_0_0_1_1_n_n.contr.Idx) :
    (dot_S128x10000_S128x128_S10000x128_0_0_1_1_n_n.lhsIdx i q 0).val = (q ⟨0, by decide⟩).val :=
  dot_S128x10000_S128x128_S10000x128_0_0_1_1_n_n.lhsIdx_val_of_single rfl i q
theorem lhs_scatter_1 (i : S10000x128.Idx) (q : dot_S128x10000_S128x128_S10000x128_0_0_1_1_n_n.contr.Idx) :
    (dot_S128x10000_S128x128_S10000x128_0_0_1_1_n_n.lhsIdx i q 1).val = (i 0).val := by
  unfold DotDims.lhsIdx
  rw [dif_neg (show ¬(1 : Fin S128x10000.rank) ∈ dot_S128x10000_S128x128_S10000x128_0_0_1_1_n_n.lhsBatch by decide), dif_pos (show (1 : Fin S128x10000.rank) ∈ dot_S128x10000_S128x128_S10000x128_0_0_1_1_n_n.lhsNonContracting by decide)]
  rfl
theorem rhs_scatter_0 (i : S10000x128.Idx) (q : dot_S128x10000_S128x128_S10000x128_0_0_1_1_n_n.contr.Idx) :
    (dot_S128x10000_S128x128_S10000x128_0_0_1_1_n_n.rhsIdx i q 0).val = (q ⟨0, by decide⟩).val :=
  dot_S128x10000_S128x128_S10000x128_0_0_1_1_n_n.rhsIdx_val_of_single rfl i q
theorem rhs_scatter_1 (i : S10000x128.Idx) (q : dot_S128x10000_S128x128_S10000x128_0_0_1_1_n_n.contr.Idx) :
    (dot_S128x10000_S128x128_S10000x128_0_0_1_1_n_n.rhsIdx i q 1).val = (i 1).val := by
  unfold DotDims.rhsIdx
  rw [dif_neg (show ¬(1 : Fin S128x128.rank) ∈ dot_S128x10000_S128x128_S10000x128_0_0_1_1_n_n.rhsBatch by decide), dif_pos (show (1 : Fin S128x128.rank) ∈ dot_S128x10000_S128x128_S10000x128_0_0_1_1_n_n.rhsNonContracting by decide)]
  rfl

/-! ## The two products at an index -/

/-- Rows times centres, contracted over the 10000 classes. -/
theorem gather_apply (lhs : FVec Ideal S128x10000 .bf16) (rhs : FVec Ideal S10000x128 .bf16) (r : Fin 128) (d : Fin 128) :
    matmul dot_S128x10000_S10000x128_S128x128_1_0_0_1_n_n none lhs rhs (constant S128x128 .f32 0x00000000#32) (ix2 r d)
      = ∑ k : Fin 10000, lhs (ix2 r k) * rhs (ix2 k d) := by
  simp only [matmul]
  rw [Ideal.matmul_constant_zero_apply, ← Equiv.sum_comp (ValueIdx.contrEquiv1 dot_S128x10000_S10000x128_S128x128_1_0_0_1_n_n 10000 rfl rfl).symm]
  refine Finset.sum_congr rfl fun k _ => ?_
  have hk := ValueIdx.contrEquiv1_symm_val dot_S128x10000_S10000x128_S128x128_1_0_0_1_n_n 10000 rfl rfl k
  have el : dot_S128x10000_S10000x128_S128x128_1_0_0_1_n_n.lhsIdx (ix2 r d) ((ValueIdx.contrEquiv1 dot_S128x10000_S10000x128_S128x128_1_0_0_1_n_n 10000 rfl rfl).symm k) = ix2 r k := funext fun a => Fin.ext (by
    match a with
    | ⟨0, _⟩ => exact lhs_gather_0 _ _
    | ⟨1, _⟩ => exact (lhs_gather_1 _ _).trans hk)
  have er : dot_S128x10000_S10000x128_S128x128_1_0_0_1_n_n.rhsIdx (ix2 r d) ((ValueIdx.contrEquiv1 dot_S128x10000_S10000x128_S128x128_1_0_0_1_n_n 10000 rfl rfl).symm k) = ix2 k d := funext fun a => Fin.ext (by
    match a with
    | ⟨0, _⟩ => exact (rhs_gather_0 _ _).trans hk
    | ⟨1, _⟩ => exact rhs_gather_1 _ _)
  rw [el, er]

/-- The weight block, read transposed, times the residuals, contracted over the block's 128 rows. -/
theorem scatter_apply (lhs : FVec Ideal S128x10000 .bf16) (rhs : FVec Ideal S128x128 .bf16) (c : Fin 10000) (d : Fin 128) :
    matmul dot_S128x10000_S128x128_S10000x128_0_0_1_1_n_n none lhs rhs (constant S10000x128 .f32 0x00000000#32) (ix2 c d)
      = ∑ r : Fin 128, lhs (ix2 r c) * rhs (ix2 r d) := by
  simp only [matmul]
  rw [Ideal.matmul_constant_zero_apply, ← Equiv.sum_comp (ValueIdx.contrEquiv1 dot_S128x10000_S128x128_S10000x128_0_0_1_1_n_n 128 rfl rfl).symm]
  refine Finset.sum_congr rfl fun k _ => ?_
  have hk := ValueIdx.contrEquiv1_symm_val dot_S128x10000_S128x128_S10000x128_0_0_1_1_n_n 128 rfl rfl k
  have el : dot_S128x10000_S128x128_S10000x128_0_0_1_1_n_n.lhsIdx (ix2 c d) ((ValueIdx.contrEquiv1 dot_S128x10000_S128x128_S10000x128_0_0_1_1_n_n 128 rfl rfl).symm k) = ix2 k c := funext fun a => Fin.ext (by
    match a with
    | ⟨0, _⟩ => exact (lhs_scatter_0 _ _).trans hk
    | ⟨1, _⟩ => exact lhs_scatter_1 _ _)
  have er : dot_S128x10000_S128x128_S10000x128_0_0_1_1_n_n.rhsIdx (ix2 c d) ((ValueIdx.contrEquiv1 dot_S128x10000_S128x128_S10000x128_0_0_1_1_n_n 128 rfl rfl).symm k) = ix2 k d := funext fun a => Fin.ext (by
    match a with
    | ⟨0, _⟩ => exact (rhs_scatter_0 _ _).trans hk
    | ⟨1, _⟩ => exact rhs_scatter_1 _ _)
  rw [el, er]

/-! ## The stored values at an index -/

/-- The cached centres are the centres (the narrowing is the identity on extended reals). -/
theorem cache_apply (v26 : Vec Ideal S10000x128 .f32) (j : S10000x128.Idx) : k0_pay1 (F := Ideal) v26 j = v26 j := by
  unfold k0_pay1
  rw [shapeCast_self]
  rfl

/-- The gradient accumulator is reset to zero. -/
theorem zeroGrad_apply (j : S10000x128.Idx) : k0_pay2 (F := Ideal) j = 0 := by
  unfold k0_pay2
  rw [shapeCast_self]
  exact Ideal.ofBits_zero_f32

/-- The count accumulator is reset to zero. -/
theorem zeroCount_apply (j : S1x10000.Idx) : k0_pay3 (F := Ideal) j = 0 := by
  unfold k0_pay3
  rw [shapeCast_self]
  exact Ideal.ofBits_zero_f32

/-- The gradient accumulator after a point. -/
theorem grad_apply (v3 : Vec Ideal S128x10000 .f32) (v5 : Vec Ideal S10000x128 .bf16) (v7 : Vec Ideal S128x128 .f32)
    (v11 : Vec Ideal S10000x128 .f32) (c : Fin 10000) (d : Fin 128) :
    k0_pay4 (F := Ideal) v3 v5 v7 v11 (ix2 c d)
      = v11 (ix2 c d) + ∑ r : Fin 128, v3 (ix2 r c) * ((∑ k : Fin 10000, v3 (ix2 r k) * v5 (ix2 k d)) - v7 (ix2 r d)) := by
  unfold k0_pay4
  rw [shapeCast_self]
  refine (addf_apply _ _ _).trans ?_
  refine congrArg (v11 (ix2 c d) + ·) ?_
  refine (scatter_apply _ _ c d).trans ?_
  refine Finset.sum_congr rfl fun r _ => ?_
  refine congrArg (v3 (ix2 r c) * ·) ?_
  refine (subf_apply _ _ _).trans ?_
  refine congrArg (· - v7 (ix2 r d)) ?_
  exact gather_apply _ _ r d

/-- The count accumulator after a point: the old count plus the block's column sum. -/
theorem count_apply (v3 : Vec Ideal S128x10000 .f32) (v18 : Vec Ideal S1x10000 .f32) (c : Fin 10000) :
    k0_pay5 (F := Ideal) v3 v18 (ix2 0 c) = v18 (ix2 0 c) + ∑ r : Fin 128, v3 (ix2 r c) := by
  unfold k0_pay5
  rw [shapeCast_self]
  refine (addf_apply _ _ _).trans ?_
  refine congrArg (v18 (ix2 0 c) + ·) ?_
  rw [shapeCast_apply _ shapeCasts_S10000_S1x10000 (ix2 0 c) (ix1 c) (by
    rw [Shape.rowMajor_val_one, Shape.rowMajor_val_two]
    show c.val = 0 * 10000 + c.val
    omega)]
  refine (Ideal.multiReduction_add_single (s := S128x10000) (t := S10000) (a := 0) v3 0x00000000#32
    reduces_S128x10000_S10000 (.inl rfl) rfl (ix1 c)).trans ?_
  refine Finset.sum_congr rfl fun r _ => ?_
  exact congrArg v3 (funext fun a => Fin.ext (by
    match a with
    | ⟨0, _⟩ => rfl
    | ⟨1, _⟩ => rfl))

end Cert.KernelIdeal.Acc

end
-- ==== Proof.Spec.lean ====
/-
  The mathematics of the class-centre update, free of any program.

  Inputs: the sample-to-class weights `L` (16384 × 10000), the samples' embeddings `P` (16384 × 128) and the class
  centres `Cn` (10000 × 128), all over the extended reals.
    residual  n d = (∑ k, L n k · Cn k d) − P n d                  the sample's centre minus its embedding
    gradient  c d = ∑ n, L n c · residual n d                       the residuals scattered back onto the classes
    count     c   = ∑ n, L n c                                      how much weight a class received
  The kernel walks the 16384 samples in 128 blocks of 128 rows, adding each block's share of `gradient` and `count`
  to running totals. Because addition of extended reals is commutative and associative, the sum over all samples is
  the sum over the blocks of the sums inside each block (`sum_blocks`), and the running total after block `n` is the
  sum of the shares of the blocks up to `n` (`upTo`). No distributivity and no cancellation is used, so no finiteness
  of the inputs is needed.
-/
import Idealize.ShloMosaic.PureOps.Ideal
import Idealize.ShloMosaic.Lib.ValueIdx

noncomputable section

namespace CenterUpdate

open Idealize.ShloMosaic Idealize.ShloMosaic.ValueIdx

/-- Row `r` of block `b`: sample `128 b + r`. -/
def rowOf (b r : Fin 128) : Fin 16384 := ⟨128 * b.val + r.val, by have := b.isLt; have := r.isLt; omega⟩

@[simp] theorem rowOf_val (b r : Fin 128) : (rowOf b r).val = 128 * b.val + r.val := rfl

/-- (block, row in the block) ↔ sample. -/
def blockEquiv : Fin 128 × Fin 128 ≃ Fin 16384 where
  toFun p := rowOf p.1 p.2
  invFun n := (⟨n.val / 128, by have := n.isLt; omega⟩, ⟨n.val % 128, by omega⟩)
  left_inv p := by
    rcases p with ⟨b, r⟩
    have hb := b.isLt
    have hr := r.isLt
    refine Prod.ext (Fin.ext ?_) (Fin.ext ?_)
    · show (128 * b.val + r.val) / 128 = b.val
      omega
    · show (128 * b.val + r.val) % 128 = r.val
      omega
  right_inv n := by
    refine Fin.ext ?_
    show 128 * (n.val / 128) + n.val % 128 = n.val
    omega

/-- A sum over the samples is the sum over the blocks of the sums over each block's rows. -/
theorem sum_blocks {M : Type*} [AddCommMonoid M] (f : Fin 16384 → M) :
    ∑ n, f n = ∑ b : Fin 128, ∑ r : Fin 128, f (rowOf b r) := by
  rw [← Equiv.sum_comp blockEquiv f, Fintype.sum_prod_type]
  rfl

/-- The sum of the shares of the blocks up to and including block `n`. -/
def upTo {M : Type*} [AddCommMonoid M] (g : Fin 128 → M) (n : ℕ) : M :=
  ∑ b ∈ Finset.univ.filter (fun b : Fin 128 => b.val ≤ n), g b

theorem upTo_zero {M : Type*} [AddCommMonoid M] (g : Fin 128 → M) : upTo g 0 = g 0 := by
  unfold upTo
  have h : Finset.univ.filter (fun b : Fin 128 => b.val ≤ 0) = {0} := by
    ext b
    simp only [Finset.mem_filter, Finset.mem_univ, true_and, Finset.mem_singleton, Fin.ext_iff, Fin.val_zero]
    omega
  rw [h, Finset.sum_singleton]

theorem upTo_succ {M : Type*} [AddCommMonoid M] (g : Fin 128 → M) (n : ℕ) (h : n + 1 < 128) :
    upTo g (n + 1) = upTo g n + g ⟨n + 1, h⟩ := by
  unfold upTo
  have hs : Finset.univ.filter (fun b : Fin 128 => b.val ≤ n + 1)
      = insert (⟨n + 1, h⟩ : Fin 128) (Finset.univ.filter (fun b : Fin 128 => b.val ≤ n)) := by
    ext b
    simp only [Finset.mem_filter, Finset.mem_univ, true_and, Finset.mem_insert, Fin.ext_iff]
    omega
  have hn : (⟨n + 1, h⟩ : Fin 128) ∉ Finset.univ.filter (fun b : Fin 128 => b.val ≤ n) := by
    simp only [Finset.mem_filter, Finset.mem_univ, true_and]
    omega
  rw [hs, Finset.sum_insert hn, add_comm]

theorem upTo_last {M : Type*} [AddCommMonoid M] (g : Fin 128 → M) : upTo g 127 = ∑ b, g b := by
  unfold upTo
  rw [Finset.filter_true_of_mem]
  intro b _
  have := b.isLt
  omega

/-! ## The update, index by index -/

abbrev SL : Shape := ⟨2, ![16384, 10000]⟩
abbrev SP : Shape := ⟨2, ![16384, 128]⟩
abbrev SC : Shape := ⟨2, ![10000, 128]⟩

variable (L : SL.Idx → EReal) (P : SP.Idx → EReal) (Cn : SC.Idx → EReal)

/-- A sample's class centre (its weights applied to the centres) minus its embedding. -/
def residual (n : Fin 16384) (d : Fin 128) : EReal := (∑ k : Fin 10000, L (ix2 n k) * Cn (ix2 k d)) - P (ix2 n d)

/-- The residuals scattered back onto the classes. -/
def gradient (c : Fin 10000) (d : Fin 128) : EReal := ∑ n : Fin 16384, L (ix2 n c) * residual L P Cn n d

/-- The weight a class received. -/
def count (c : Fin 10000) : EReal := ∑ n : Fin 16384, L (ix2 n c)

/-- Block `b`'s share of the gradient. -/
def blockGradient (c : Fin 10000) (d : Fin 128) (b : Fin 128) : EReal :=
  ∑ r : Fin 128, L (ix2 (rowOf b r) c) * residual L P Cn (rowOf b r) d

/-- Block `b`'s share of the count. -/
def blockCount (c : Fin 10000) (b : Fin 128) : EReal := ∑ r : Fin 128, L (ix2 (rowOf b r) c)

theorem gradient_eq_blocks (c : Fin 10000) (d : Fin 128) :
    gradient L P Cn c d = ∑ b : Fin 128, blockGradient L P Cn c d b :=
  sum_blocks fun n => L (ix2 n c) * residual L P Cn n d

theorem count_eq_blocks (c : Fin 10000) : count L c = ∑ b : Fin 128, blockCount L c b :=
  sum_blocks fun n => L (ix2 n c)

/-- The updated centre: the centre moved against its class's mean residual, the mean taken with one extra unit of
    weight (`one`) and the step scaled by `half`; both constants stay the values their words denote. -/
def updated (half one : EReal) (c : Fin 10000) (d : Fin 128) : EReal :=
  Cn (ix2 c d) - half * Ideal.div (gradient L P Cn c d) (count L c + one)

/-- The words the two programs write for the step scale (0.5) and the extra unit of weight (1.0), read at the extended
    reals; both programs carry the same words, so their values are never opened. -/
abbrev halfWord : EReal := Ideal.ofBits .f32 0x3F000000#32
abbrev oneWord : EReal := Ideal.ofBits .f32 0x3F800000#32

/-- The result both programs compute. -/
def result (c : Fin 10000) (d : Fin 128) : EReal := updated L P Cn halfWord oneWord c d

end CenterUpdate

end
-- ==== Proof.Invariant.lean ====
/-
  The running totals, point by point.

  After grid point `n` the kernel's three carried buffers hold: the centres (cached once at the first point); at `(c, d)`
  the sum of the gradient shares of blocks `0 … n`; at `c` the sum of the count shares of blocks `0 … n`. This is an
  induction on the point: the first point starts both totals from zero, every later point adds its block's share to what
  the point before left. At the last point the kernel copies both totals to its outputs, so they hold the sums over all
  128 blocks, which are the sums over all 16384 samples.
-/
import proofs.«153631_j22136261443658_1_alg».proof.Proof.Pieces
import proofs.«153631_j22136261443658_1_alg».proof.Proof.Payload
import proofs.«153631_j22136261443658_1_alg».proof.Proof.Spec

noncomputable section

namespace Cert.KernelIdeal.Acc

open Idealize.ShloMosaic Idealize.ShloMosaic.TcCoe Idealize.SL.Sem Idealize.ShloMosaic.ValueIdx
open Cert.KernelIdeal Cert.KernelIdeal.Gen CenterUpdate

/-! ## One point's step, over plain vectors -/

/-- A point whose weight block is rows `128 b …` of `L`, whose embedding block is the same rows of `P`, and whose cached
    centres are `Cn`, adds block `b`'s share to the gradient total. -/
theorem grad_step (lb : Vec Ideal S128x10000 .f32) (pb : Vec Ideal S128x128 .f32) (cache : Vec Ideal S10000x128 .bf16)
    (old : Vec Ideal S10000x128 .f32) (L : SL.Idx → EReal) (P : SP.Idx → EReal) (Cn : SC.Idx → EReal) (b : Fin 128)
    (hl : ∀ (r : Fin 128) (k : Fin 10000), lb (ix2 r k) = L (ix2 (rowOf b r) k))
    (hp : ∀ (r : Fin 128) (d : Fin 128), pb (ix2 r d) = P (ix2 (rowOf b r) d))
    (hc : ∀ j, cache j = Cn j) (cl : Fin 10000) (d : Fin 128) :
    k0_pay4 (F := Ideal) lb cache pb old (ix2 cl d) = old (ix2 cl d) + blockGradient L P Cn cl d b := by
  refine (grad_apply lb cache pb old cl d).trans ?_
  refine congrArg (old (ix2 cl d) + ·) ?_
  unfold CenterUpdate.blockGradient CenterUpdate.residual
  refine Finset.sum_congr rfl fun r _ => ?_
  rw [hl r cl, hp r d]
  refine congrArg (fun s => L (ix2 (rowOf b r) cl) * (s - P (ix2 (rowOf b r) d))) ?_
  refine Finset.sum_congr rfl fun k _ => ?_
  rw [hl r k, hc (ix2 k d)]

/-- The same point adds block `b`'s share to the count total. -/
theorem count_step (lb : Vec Ideal S128x10000 .f32) (old : Vec Ideal S1x10000 .f32) (L : SL.Idx → EReal) (b : Fin 128)
    (hl : ∀ (r : Fin 128) (k : Fin 10000), lb (ix2 r k) = L (ix2 (rowOf b r) k)) (cl : Fin 10000) :
    k0_pay5 (F := Ideal) lb old (ix2 0 cl) = old (ix2 0 cl) + blockCount L cl b := by
  refine (count_apply lb old cl).trans ?_
  refine congrArg (old (ix2 0 cl) + ·) ?_
  unfold CenterUpdate.blockCount
  exact Finset.sum_congr rfl fun r _ => hl r cl

/-! ## The arrays as the region finds them, and the blocks a point reads -/

variable (m : (ℓ : Loc nD τ sig) → Buf (Elt Ideal) ℓ)

abbrev Lw (c : Dev nD) : Vec Ideal S16384x10000 .f32 := V m c main_arg1
abbrev Pw (c : Dev nD) : Vec Ideal S16384x128 .f32 := V m c main_arg0
abbrev Cw (c : Dev nD) : Vec Ideal S10000x128 .f32 := V m c main_arg2
abbrev lblk (c : Dev nD) (t : Fin cfg0.N) : Vec Ideal S128x10000 .f32 := iblk m c 0 t
abbrev pblk (c : Dev nD) (t : Fin cfg0.N) : Vec Ideal S128x128 .f32 := iblk m c 1 t
abbrev cblk (c : Dev nD) (t : Fin cfg0.N) : Vec Ideal S10000x128 .f32 := iblk m c 2 t

/-- A grid point as a block number. -/
def blockOf (t : Fin cfg0.N) : Fin 128 := ⟨t.val, lt_of_lt_of_eq t.isLt (show cfg0.N = 128 from N_0)⟩

/-- The printed index maps, decided over the grid: the weights and the embeddings move one block of rows per point, the
    centres stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem lblk_apply (c : Dev nD) (t : Fin cfg0.N) (r : Fin 128) (k : Fin 10000) :
    lblk m c t (ix2 r k) = Lw m c (ix2 (rowOf (blockOf t) r) k) := by
  obtain ⟨e0, e1, -, -, -, -⟩ := idx_facts t
  show V m c main_arg1 (((cfg0.win 0).blk t).view.emb (ix2 r k)) = V m c main_arg1 (ix2 (rowOf (blockOf t) r) k)
  refine congrArg (V m c main_arg1) (funext fun a => Fin.ext ?_)
  match a with
  | ⟨0, _⟩ => show win0_0.index t (0 : Fin 2) * 128 + 1 * r.val = 128 * t.val + r.val; rw [e0]; omega
  | ⟨1, _⟩ => show win0_0.index t (1 : Fin 2) * 10000 + 1 * k.val = k.val; rw [e1]; omega

theorem pblk_apply (c : Dev nD) (t : Fin cfg0.N) (r : Fin 128) (d : Fin 128) :
    pblk m c t (ix2 r d) = Pw m c (ix2 (rowOf (blockOf t) r) d) := by
  obtain ⟨-, -, e0, e1, -, -⟩ := idx_facts t
  show V m c main_arg0 (((cfg0.win 1).blk t).view.emb (ix2 r d)) = V m c main_arg0 (ix2 (rowOf (blockOf t) r) d)
  refine congrArg (V m c main_arg0) (funext fun a => Fin.ext ?_)
  match a with
  | ⟨0, _⟩ => show win0_1.index t (0 : Fin 2) * 128 + 1 * r.val = 128 * t.val + r.val; rw [e0]; omega
  | ⟨1, _⟩ => show win0_1.index t (1 : Fin 2) * 128 + 1 * d.val = d.val; rw [e1]; omega

theorem cblk_apply (c : Dev nD) (t : Fin cfg0.N) (j : S10000x128.Idx) : cblk m c t j = Cw m c j := by
  obtain ⟨-, -, -, -, e0, e1⟩ := idx_facts t
  show V m c main_arg2 (((cfg0.win 2).blk t).view.emb j) = V m c main_arg2 j
  refine congrArg (V m c main_arg2) (funext fun a => Fin.ext ?_)
  match a with
  | ⟨0, _⟩ => show win0_2.index t (0 : Fin 2) * 10000 + 1 * (j 0).val = (j 0).val; rw [e0]; omega
  | ⟨1, _⟩ => show win0_2.index t (1 : Fin 2) * 128 + 1 * (j 1).val = (j 1).val; rw [e1]; omega

/-! ## The carried buffers after each point -/

abbrev cacheAt (c : Dev nD) (n : ℕ) (hn : n < cfg0.N) : Vec Ideal S10000x128 .bf16 := (outsAt0 m c n hn).2.2.1
abbrev gradAt (c : Dev nD) (n : ℕ) (hn : n < cfg0.N) : Vec Ideal S10000x128 .f32 := (outsAt0 m c n hn).2.2.2.1
abbrev countAt (c : Dev nD) (n : ℕ) (hn : n < cfg0.N) : Vec Ideal S1x10000 .f32 := (outsAt0 m c n hn).2.2.2.2

/-- What the three carried buffers hold after point `n`. -/
def Carried (c : Dev nD) (n : ℕ) (hn : n < cfg0.N) : Prop :=
  (∀ j, cacheAt m c n hn j = Cw m c j)
  ∧ (∀ (cl : Fin 10000) (d : Fin 128), gradAt m c n hn (ix2 cl d) = upTo (blockGradient (Lw m c) (Pw m c) (Cw m c) cl d) n)
  ∧ (∀ cl : Fin 10000, countAt m c n hn (ix2 0 cl) = upTo (blockCount (Lw m c) cl) n)

theorem carried (c : Dev nD) : ∀ (n : ℕ) (hn : n < cfg0.N), Carried m c n hn := by
  intro n
  induction n with
  | zero =>
    intro hn
    -- the first point: cache the centres, clear the totals, add block 0
    have h0 : (⟨0, hn⟩ : Fin cfg0.N).val % 128 = 0 := rfl
    have h1 : ¬(⟨0, hn⟩ : Fin cfg0.N).val % 128 = 127 := fun h => by
      have h' : (0 : ℕ) % 128 = 127 := h
      omega
    have hc0 : cond0_0 (grid0.coords ⟨0, hn⟩) := (hcond0_0 ⟨0, hn⟩).mpr h0
    have hc1 : ¬cond0_1 (grid0.coords ⟨0, hn⟩) := fun h => h1 ((hcond0_1 ⟨0, hn⟩).mp h)
    have hcache : ∀ j, k0_pay1 (F := Ideal) (cblk m c ⟨0, hn⟩) j = Cw m c j := fun j =>
      (cache_apply (cblk m c ⟨0, hn⟩) j).trans (cblk_apply m c ⟨0, hn⟩ j)
    unfold Carried cacheAt gradAt countAt
    rw [outsAt0_A m c ⟨0, hn⟩ h0 h1]
    dsimp only
    refine ⟨fun j => ?_, fun cl d => ?_, fun cl => ?_⟩
    · refine (congrFun (sA0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) hc0 hc1 (lblk m c ⟨0, hn⟩) (pblk m c ⟨0, hn⟩) (cblk m c ⟨0, hn⟩)) j).trans ?_
      exact hcache j
    · refine (congrFun (sA1 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) hc0 hc1 (lblk m c ⟨0, hn⟩) (pblk m c ⟨0, hn⟩) (cblk m c ⟨0, hn⟩)) (ix2 cl d)).trans ?_
      refine (grad_step (lblk m c ⟨0, hn⟩) (pblk m c ⟨0, hn⟩) (k0_pay1 (F := Ideal) (cblk m c ⟨0, hn⟩)) (k0_pay2 (F := Ideal)) (Lw m c) (Pw m c) (Cw m c)
        (blockOf ⟨0, hn⟩) (lblk_apply m c ⟨0, hn⟩) (pblk_apply m c ⟨0, hn⟩) hcache cl d).trans ?_
      rw [zeroGrad_apply, zero_add, upTo_zero]
      rfl
    · refine (congrFun (sA2 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) hc0 hc1 (lblk m c ⟨0, hn⟩) (pblk m c ⟨0, hn⟩) (cblk m c ⟨0, hn⟩)) (ix2 0 cl)).trans ?_
      refine (count_step (lblk m c ⟨0, hn⟩) (k0_pay3 (F := Ideal)) (Lw m c) (blockOf ⟨0, hn⟩) (lblk_apply m c ⟨0, hn⟩) cl).trans ?_
      rw [zeroCount_apply, zero_add, upTo_zero]
      rfl
  | succ n ih =>
    intro hn
    have hN : cfg0.N = 128 := N_0
    have hlt : n + 1 < 128 := lt_of_lt_of_eq hn hN
    have hn' : n < cfg0.N := Nat.lt_of_succ_lt hn
    have h0 : ¬(⟨n + 1, hn⟩ : Fin cfg0.N).val % 128 = 0 := by
      show ¬(n + 1) % 128 = 0
      omega
    unfold Carried cacheAt gradAt countAt
    by_cases h1 : (⟨n + 1, hn⟩ : Fin cfg0.N).val % 128 = 127
    · -- the last point accumulates like every later point (and also copies the totals out)
      have hc0 : ¬cond0_0 (grid0.coords ⟨n + 1, hn⟩) := fun h => h0 ((hcond0_0 ⟨n + 1, hn⟩).mp h)
      have hc1 : cond0_1 (grid0.coords ⟨n + 1, hn⟩) := (hcond0_1 ⟨n + 1, hn⟩).mpr h1
      rw [outsAt0_C m c ⟨n + 1, hn⟩ h0 h1]
      dsimp only
      refine ⟨fun j => (ih hn').1 j, fun cl d => ?_, fun cl => ?_⟩
      · refine (congrFun (sC1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) hc0 hc1 (lblk m c ⟨n + 1, hn⟩) (pblk m c ⟨n + 1, hn⟩) (cblk m c ⟨n + 1, hn⟩)
          (cacheAt m c n hn') (gradAt m c n hn') (countAt m c n hn')) (ix2 cl d)).trans ?_
        refine (grad_step (lblk m c ⟨n + 1, hn⟩) (pblk m c ⟨n + 1, hn⟩) (cacheAt m c n hn') (gradAt m c n hn') (Lw m c) (Pw m c) (Cw m c) (blockOf ⟨n + 1, hn⟩)
          (lblk_apply m c ⟨n + 1, hn⟩) (pblk_apply m c ⟨n + 1, hn⟩) (ih hn').1 cl d).trans ?_
        rw [(ih hn').2.1 cl d, upTo_succ _ n hlt]
        rfl
      · refine (congrFun (sC2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) hc0 hc1 (lblk m c ⟨n + 1, hn⟩) (pblk m c ⟨n + 1, hn⟩) (cblk m c ⟨n + 1, hn⟩)
          (cacheAt m c n hn') (gradAt m c n hn') (countAt m c n hn')) (ix2 0 cl)).trans ?_
        refine (count_step (lblk m c ⟨n + 1, hn⟩) (countAt m c n hn') (Lw m c) (blockOf ⟨n + 1, hn⟩) (lblk_apply m c ⟨n + 1, hn⟩) cl).trans ?_
        rw [(ih hn').2.2 cl, upTo_succ _ n hlt]
        rfl
    · -- a middle point adds its block's share to what the point before left
      have hc0 : ¬cond0_0 (grid0.coords ⟨n + 1, hn⟩) := fun h => h0 ((hcond0_0 ⟨n + 1, hn⟩).mp h)
      have hc1 : ¬cond0_1 (grid0.coords ⟨n + 1, hn⟩) := fun h => h1 ((hcond0_1 ⟨n + 1, hn⟩).mp h)
      rw [outsAt0_B m c ⟨n + 1, hn⟩ h0 h1]
      dsimp only
      refine ⟨fun j => (ih hn').1 j, fun cl d => ?_, fun cl => ?_⟩
      · refine (congrFun (sB1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) hc0 hc1 (lblk m c ⟨n + 1, hn⟩) (pblk m c ⟨n + 1, hn⟩) (cblk m c ⟨n + 1, hn⟩)
          (cacheAt m c n hn') (gradAt m c n hn') (countAt m c n hn')) (ix2 cl d)).trans ?_
        refine (grad_step (lblk m c ⟨n + 1, hn⟩) (pblk m c ⟨n + 1, hn⟩) (cacheAt m c n hn') (gradAt m c n hn') (Lw m c) (Pw m c) (Cw m c) (blockOf ⟨n + 1, hn⟩)
          (lblk_apply m c ⟨n + 1, hn⟩) (pblk_apply m c ⟨n + 1, hn⟩) (ih hn').1 cl d).trans ?_
        rw [(ih hn').2.1 cl d, upTo_succ _ n hlt]
        rfl
      · refine (congrFun (sB2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) hc0 hc1 (lblk m c ⟨n + 1, hn⟩) (pblk m c ⟨n + 1, hn⟩) (cblk m c ⟨n + 1, hn⟩)
          (cacheAt m c n hn') (gradAt m c n hn') (countAt m c n hn')) (ix2 0 cl)).trans ?_
        refine (count_step (lblk m c ⟨n + 1, hn⟩) (countAt m c n hn') (Lw m c) (blockOf ⟨n + 1, hn⟩) (lblk_apply m c ⟨n + 1, hn⟩) cl).trans ?_
        rw [(ih hn').2.2 cl, upTo_succ _ n hlt]
        rfl

/-! ## The outputs at the last point -/

/-- The last point copies the two totals out, so the outputs hold the sums over all blocks: the whole gradient and the
    whole count. -/
theorem outputs_last (c : Dev nD) (t : Fin cfg0.N) (h1 : t.val % 128 = 127) :
    (∀ (cl : Fin 10000) (d : Fin 128), (outsAt0 m c t.val t.isLt).1 (ix2 cl d) = gradient (Lw m c) (Pw m c) (Cw m c) cl d)
    ∧ (∀ cl : Fin 10000, (outsAt0 m c t.val t.isLt).2.1 (ix2 0 cl) = count (Lw m c) cl) := by
  have hN : cfg0.N = 128 := N_0
  have hlt : t.val < 128 := lt_of_lt_of_eq t.isLt hN
  have htv : t.val = 127 := by omega
  have h0 : ¬t.val % 128 = 0 := by omega
  have hp : t.val - 1 < cfg0.N := Nat.lt_of_le_of_lt (Nat.sub_le _ _) t.isLt
  have hc0 : ¬cond0_0 (grid0.coords t) := fun h => h0 ((hcond0_0 t).mp h)
  have hc1 : cond0_1 (grid0.coords t) := (hcond0_1 t).mpr h1
  have hcar := carried m c t.val t.isLt
  unfold Carried cacheAt gradAt countAt at hcar
  rw [outsAt0_C m c t h0 h1] at hcar ⊢
  dsimp only at hcar ⊢
  obtain ⟨-, hg, hk⟩ := hcar
  refine ⟨fun cl d => ?_, fun cl => ?_⟩
  · refine (congrFun ((oC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (lblk m c t) (pblk m c t) (cblk m c t)
        (cacheAt m c (t.val - 1) hp) (gradAt m c (t.val - 1) hp) (countAt m c (t.val - 1) hp)).trans
      (sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (lblk m c t) (pblk m c t) (cblk m c t)
        (cacheAt m c (t.val - 1) hp) (gradAt m c (t.val - 1) hp) (countAt m c (t.val - 1) hp)).symm) (ix2 cl d)).trans ?_
    refine (hg cl d).trans ?_
    rw [htv, upTo_last, gradient_eq_blocks]
  · refine (congrFun ((oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (lblk m c t) (pblk m c t) (cblk m c t)
        (cacheAt m c (t.val - 1) hp) (gradAt m c (t.val - 1) hp) (countAt m c (t.val - 1) hp)).trans
      (sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (lblk m c t) (pblk m c t) (cblk m c t)
        (cacheAt m c (t.val - 1) hp) (gradAt m c (t.val - 1) hp) (countAt m c (t.val - 1) hp)).symm) (ix2 0 cl)).trans ?_
    refine (hk cl).trans ?_
    rw [htv, upTo_last, count_eq_blocks]

end Cert.KernelIdeal.Acc

end
-- ==== Proof.KernelValue.lean ====
/-
  The kernel's program, read: its result is the updated centre of Spec.lean.

  The accumulating region writes each of its two output arrays back once, after the last grid point, and each output's one
  block is its whole array; so after the region the first array holds the gradient and the second the count (Invariant.lean).
  The operations after the region turn the count row into a column, add one, divide the gradient by it row by row, scale
  by one half and subtract from the centres — read at `(c, d)` this is `Cn c d − half · (gradient c d / (count c + one))`.
-/
import proofs.«153631_j22136261443658_1_alg».proof.Proof.Invariant
import Idealize.ShloMosaic.Lib.Pipeline.Value
import Idealize.ShloMosaic.Lib.StableHlo.Run

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen CenterUpdate

variable (m : (ℓ : Loc nD τ sig) → Buf (Elt Ideal) ℓ) (ρ : Dev nD → PrngReg)

/-! ## The two arrays the region leaves -/

/-- The gradient, as contents of the region's first result array. -/
def gradArr (c : Dev nD) : Buf (Elt Ideal) ((c : Thread nD τ).loc main_v0_0) :=
  fun i => gradient (Lw m c) (Pw m c) (Cw m c) (i 0) (i 1)

/-- The count, as contents of the region's second result array (one row). -/
def countArr (c : Dev nD) : Buf (Elt Ideal) ((c : Thread nD τ).loc main_v0_1) :=
  fun i => count (Lw m c) (i 1)

/-- The outputs' index maps, decided over the grid: both stay at block (0, 0). -/
theorem out_idx_facts : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The last grid point. -/
def tLast : Fin cfg0.N := ⟨127, by rw [show cfg0.N = 128 from N_0]; decide⟩

/-- What the last point writes back into the first result array is a block of any array `G` that agrees, index by
    index, with what the point left in the output's buffer: the block is at (0, 0) and is the whole array. -/
theorem flushed3_of (c : Dev nD) (t : Fin cfg0.N) (G : Buf (Elt Ideal) ((c : Thread nD τ).loc main_v0_0))
    (hG : ∀ (cl : Fin 10000) (d : Fin 128), (outsAt0 m c t.val t.isLt).1 (ix2 cl d) = G (ix2 cl d)) :
    (dats m 0 c).flushed 3 t = ((cfg0.win 3).blk t).view.read (Elt Ideal) G := by
  obtain ⟨e0, e1, -, -⟩ := out_idx_facts t
  show (cfg0.win 3).cut (grid0.coords t) ((dats m 0 c).after 3 t) = _
  rw [after0_3]
  generalize (outsAt0 m c t.val t.isLt).1 = X at hG
  funext j
  have hj0 : (j 0).val < 10000 := (j 0).isLt
  have hj1 : (j 1).val < 128 := (j 1).isLt
  have hx : (cfg0.win 3).xinj (grid0.coords t) j = ix2 (⟨(j 0).val, hj0⟩ : Fin 10000) (⟨(j 1).val, hj1⟩ : Fin 128) :=
    funext fun a => Fin.ext (by
      match a with
      | ⟨0, _⟩ => rfl
      | ⟨1, _⟩ => rfl)
  have he : ((cfg0.win 3).blk t).view.emb j = ix2 (⟨(j 0).val, hj0⟩ : Fin 10000) (⟨(j 1).val, hj1⟩ : Fin 128) :=
    funext fun a => Fin.ext (by
      match a with
      | ⟨0, _⟩ => show win0_3.index t (0 : Fin 2) * 10000 + 1 * (j 0).val = (j 0).val; rw [e0]; omega
      | ⟨1, _⟩ => show win0_3.index t (1 : Fin 2) * 128 + 1 * (j 1).val = (j 1).val; rw [e1]; omega)
  show X ((cfg0.win 3).xinj (grid0.coords t) j) = G (((cfg0.win 3).blk t).view.emb j)
  rw [hx, he]
  exact hG _ _

theorem flushed4_of (c : Dev nD) (t : Fin cfg0.N) (G : Buf (Elt Ideal) ((c : Thread nD τ).loc main_v0_1))
    (hG : ∀ cl : Fin 10000, (outsAt0 m c t.val t.isLt).2.1 (ix2 0 cl) = G (ix2 0 cl)) :
    (dats m 0 c).flushed 4 t = ((cfg0.win 4).blk t).view.read (Elt Ideal) G := by
  obtain ⟨-, -, e0, e1⟩ := out_idx_facts t
  show (cfg0.win 4).cut (grid0.coords t) ((dats m 0 c).after 4 t) = _
  rw [after0_4]
  generalize (outsAt0 m c t.val t.isLt).2.1 = X at hG
  funext j
  have hj0 : (j 0).val < 1 := (j 0).isLt
  have hj1 : (j 1).val < 10000 := (j 1).isLt
  have hx : (cfg0.win 4).xinj (grid0.coords t) j = ix2 (0 : Fin 1) (⟨(j 1).val, hj1⟩ : Fin 10000) :=
    funext fun a => Fin.ext (by
      match a with
      | ⟨0, _⟩ => show (j 0).val = 0; omega
      | ⟨1, _⟩ => rfl)
  have he : ((cfg0.win 4).blk t).view.emb j = ix2 (0 : Fin 1) (⟨(j 1).val, hj1⟩ : Fin 10000) :=
    funext fun a => Fin.ext (by
      match a with
      | ⟨0, _⟩ => show win0_4.index t (0 : Fin 2) * 1 + 1 * (j 0).val = 0; rw [e0]; omega
      | ⟨1, _⟩ => show win0_4.index t (1 : Fin 2) * 10000 + 1 * (j 1).val = (j 1).val; rw [e1]; omega)
  show X ((cfg0.win 4).xinj (grid0.coords t) j) = G (((cfg0.win 4).blk t).view.emb j)
  rw [hx, he]
  exact hG _

theorem flushed3_eq (c : Dev nD) (t : Fin cfg0.N) (hf : (cfg0.win 3).flush t = true) :
    (dats m 0 c).flushed 3 t = ((cfg0.win 3).blk t).view.read (Elt Ideal) (gradArr m c) :=
  flushed3_of m c t (gradArr m c) fun cl d => (outputs_last m c t ((flush0_3 t).mp hf)).1 cl d

theorem flushed4_eq (c : Dev nD) (t : Fin cfg0.N) (hf : (cfg0.win 4).flush t = true) :
    (dats m 0 c).flushed 4 t = ((cfg0.win 4).blk t).view.read (Elt Ideal) (countArr m c) :=
  flushed4_of m c t (countArr m c) fun cl => (outputs_last m c t ((flush0_4 t).mp hf)).2 cl

/-- An index of the first result array is in point `t`'s block iff each coordinate is in the block's range. -/
theorem mem_blk3 (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0_0).slice (win0_3.rect t)).set ↔ _
  rw [View.set_slice_whole, Rect.mem_set_unit]
  exact Iff.rfl

theorem mem_blk4 (t : Fin cfg0.N) (i : S1x10000.Idx) :
    i ∈ ((cfg0.win 4).blk t).view.set ↔ ∀ a : Fin 2, win0_4.index t a * S1x10000.size a ≤ (i a).val ∧ (i a).val < win0_4.index t a * S1x10000.size a + S1x10000.size a := by
  show i ∈ ((View.whole main_v0_1).slice (win0_4.rect t)).set ↔ _
  rw [View.set_slice_whole, Rect.mem_set_unit]
  exact Iff.rfl

/-- After the region the first result array holds the gradient: the last point's block is the whole array. -/
theorem final3 (c : Dev nD) : (dats m 0 c).arrAt 3 cfg0.N = gradArr m c :=
  (dats m 0 c).arrAt_eq_of_cover 3 (gradArr m c) (flushed3_eq m c) fun i => by
    obtain ⟨e0, e1, -, -⟩ := out_idx_facts tLast
    refine ⟨tLast, (flush0_3 tLast).mpr rfl, ?_⟩
    rw [mem_blk3]
    intro a
    have h0 : (i 0 : Nat) < 10000 := (i 0).isLt
    have h1 : (i 1 : Nat) < 128 := (i 1).isLt
    match a with
    | ⟨0, _⟩ => show win0_3.index tLast (0 : Fin 2) * 10000 ≤ (i 0 : Nat) ∧ (i 0 : Nat) < win0_3.index tLast (0 : Fin 2) * 10000 + 10000; rw [e0]; omega
    | ⟨1, _⟩ => show win0_3.index tLast (1 : Fin 2) * 128 ≤ (i 1 : Nat) ∧ (i 1 : Nat) < win0_3.index tLast (1 : Fin 2) * 128 + 128; rw [e1]; omega

/-- And the second the count. -/
theorem final4 (c : Dev nD) : (dats m 0 c).arrAt 4 cfg0.N = countArr m c :=
  (dats m 0 c).arrAt_eq_of_cover 4 (countArr m c) (flushed4_eq m c) fun i => by
    obtain ⟨-, -, e0, e1⟩ := out_idx_facts tLast
    refine ⟨tLast, (flush0_4 tLast).mpr rfl, ?_⟩
    rw [mem_blk4]
    intro a
    have h0 : (i 0 : Nat) < 1 := (i 0).isLt
    have h1 : (i 1 : Nat) < 10000 := (i 1).isLt
    match a with
    | ⟨0, _⟩ => show win0_4.index tLast (0 : Fin 2) * 1 ≤ (i 0 : Nat) ∧ (i 0 : Nat) < win0_4.index tLast (0 : Fin 2) * 1 + 1; rw [e0]; omega
    | ⟨1, _⟩ => show win0_4.index tLast (1 : Fin 2) * 10000 ≤ (i 1 : Nat) ∧ (i 1 : Nat) < win0_4.index tLast (1 : Fin 2) * 10000 + 10000; rw [e1]; omega

/-! ## The operations after the region -/

/-- The operations after the region, as one function of the gradient array, the count row and the centres. -/
def tail (G : Vec Ideal S10000x128 .f32) (K : Vec Ideal S1x10000 .f32) (Cn : Vec Ideal S10000x128 .f32) : Vec Ideal S10000x128 .f32 :=
  subf Cn (mulf (broadcastInDim S10000x128 ![] bcast_S_S10000x128 (constant (F := Ideal) S_ .f32 0x3F000000#32))
    (Host.divf G (broadcastInDim S10000x128 ![0, 1] bcast_S10000x1_S10000x128_0_1
      (addf (transpose S10000x1 [1, 0] K transposes_S1x10000_S10000x1_1_0)
        (broadcastInDim S10000x1 ![] bcast_S_S10000x1 (constant (F := Ideal) S_ .f32 0x3F800000#32))))))

/-- Read at `(c, d)`. -/
theorem tail_apply (G : Vec Ideal S10000x128 .f32) (K : Vec Ideal S1x10000 .f32) (Cn : Vec Ideal S10000x128 .f32)
    (cl : Fin 10000) (d : Fin 128) :
    tail G K Cn (ix2 cl d) = Cn (ix2 cl d) - halfWord * Ideal.div (G (ix2 cl d)) (K (ix2 0 cl) + oneWord) := by
  unfold tail
  show Cn (ix2 cl d) - (broadcastInDim S10000x128 ![] bcast_S_S10000x128 (constant (F := Ideal) S_ .f32 0x3F000000#32)) (ix2 cl d)
      * Ideal.div (G (ix2 cl d)) ((broadcastInDim S10000x128 ![0, 1] bcast_S10000x1_S10000x128_0_1
      (addf (transpose S10000x1 [1, 0] K transposes_S1x10000_S10000x1_1_0)
        (broadcastInDim S10000x1 ![] bcast_S_S10000x1 (constant (F := Ideal) S_ .f32 0x3F800000#32)))) (ix2 cl d)) = _
  rw [broadcastInDim_apply _ bcast_S_S10000x128 _ (ix2 cl d) ix0 (fun a => a.elim0)]
  rw [broadcastInDim_apply _ bcast_S10000x1_S10000x128_0_1 _ (ix2 cl d) (ix2 cl (0 : Fin 1)) (fun a => match a with
    | ⟨0, _⟩ => by show cl.val = if (10000 : Nat) = 1 then 0 else cl.val; rw [if_neg (by decide)]
    | ⟨1, _⟩ => by show 0 = if (1 : Nat) = 1 then 0 else d.val; rw [if_pos rfl])]
  show Cn (ix2 cl d) - Ideal.ofBits .f32 0x3F000000#32 * Ideal.div (G (ix2 cl d))
      ((transpose S10000x1 [1, 0] K transposes_S1x10000_S10000x1_1_0) (ix2 cl (0 : Fin 1))
        + (broadcastInDim S10000x1 ![] bcast_S_S10000x1 (constant (F := Ideal) S_ .f32 0x3F800000#32)) (ix2 cl (0 : Fin 1))) = _
  rw [transpose_apply [1, 0] K transposes_S1x10000_S10000x1_1_0 (ix2 cl (0 : Fin 1)) (ix2 (0 : Fin 1) cl) (fun b => match b with
    | ⟨0, _⟩ => rfl
    | ⟨1, _⟩ => rfl)]
  rw [broadcastInDim_apply _ bcast_S_S10000x1 _ (ix2 cl (0 : Fin 1)) ix0 (fun a => a.elim0)]
  rfl

/-! ## The run, read -/

/-- The result: the updated centres, as contents of @main's result array. -/
def resultArr (c : Dev nD) : Buf (Elt Ideal) ((c : Thread nD τ).loc main_v8) :=
  fun i => CenterUpdate.result (Lw m c) (Pw m c) (Cw m c) (i 0) (i 1)

theorem tail_result (c : Dev nD) : tail (gradArr m c) (countArr m c) (Cw m c) = resultArr m c := by
  funext j
  obtain ⟨cl, d, rfl⟩ : ∃ (cl : Fin 10000) (d : Fin 128), j = ix2 cl d := ⟨j 0, j 1, eq_ix2 j⟩
  rw [tail_apply]
  rfl

/-- What @main's result array holds after the operations that follow the region. -/
theorem after_tail (c : Dev nD) :
    Pipeline.afterTail₀ cfgs (dats m) 0 (V0 m) [hostOps1] c main_v8 = resultArr m c := by
  unfold Pipeline.afterTail₀
  show StableHlo.after hostOps1 _ (Proc.devRef .tc main_v8) = _
  after_results
  have h2 : Pipeline.withArrays (cfgs 0).spec c (V0 m c) (fun w => (dats m 0 c).arrAt w (cfgs 0).N) (Proc.devRef .tc main_arg2) = Cw m c :=
    (Pipeline.withArrays_arr spec0 launch0.win.arr_inj c _ _ 2).trans (((dats m 0 c).arrAt_in 2 rfl _).trans (A_eq m c 2))
  have h3 : Pipeline.withArrays (cfgs 0).spec c (V0 m c) (fun w => (dats m 0 c).arrAt w (cfgs 0).N) (Proc.devRef .tc main_v0_0) = gradArr m c :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_1) = countArr m c :=
    (Pipeline.withArrays_arr spec0 launch0.win.arr_inj c _ _ 4).trans (final4 m c)
  rw [h2, h3, h4]
  exact tail_result m c

/-- The run, read: every weakly fair execution of @main ends with its result array at the updated centres and its
    arguments unchanged. -/
theorem run : θ_run defs (onTc (τ := τ) (main (F := Ideal))) ⟨m, fun _ => 0, ρ⟩ fun r => ∀ c : Dev nD,
      r.2.mem ((c.tc : Thread nD τ).loc main_v8) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (after_tail m c),
       ((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c))),
       ((h c).1 2).trans (((dats m 0 c).arrAt_in 2 rfl _).trans ((A_eq m c 2).trans (V_main_arg2 m c)))⟩)
    (run_main m ρ)

end Cert.KernelIdeal.Acc

end
-- ==== Proof.RefValue.lean ====
/-
  The reference, read index by index: its result at class `c`, coordinate `d` is the updated centre of Spec.lean.

  The reference computes the residuals with one matrix product over the classes, scatters them with a second product over
  the samples (through the transposed weights), sums the transposed weights along the samples for the counts, and then
  divides, scales and subtracts. Each of those is a sum or an elementwise operation read at an index, so the whole result
  is the closed form `Cn c d − half · (gradient c d / (count c + one))`; the zero the count's sum starts from is the real
  zero and disappears.
-/
import proofs.«153631_j22136261443658_1_alg».proof.Defs
import proofs.«153631_j22136261443658_1_alg».proof.Proof.Gen.ReferenceIdeal.Run
import proofs.«153631_j22136261443658_1_alg».proof.Proof.Gen.ReferenceIdeal.Read
import proofs.«153631_j22136261443658_1_alg».proof.Proof.Spec

noncomputable section

namespace Cert.ReferenceIdeal.RefValue

open Cert.ReferenceIdeal Cert.ReferenceIdeal.Read Idealize.ShloMosaic Idealize.ShloMosaic.ValueIdx CenterUpdate

/-- The reference's result at `(c, d)` is the updated centre. -/
theorem reference_apply (P : SP.Idx → EReal) (L : SL.Idx → EReal) (Cn : SC.Idx → EReal) (c : Fin 10000) (d : Fin 128) :
    val_main_v13 (F := Ideal) P L Cn (ix2 c d) = CenterUpdate.result L P Cn c d := by
  have e1 : ∀ k : Fin 16384, idx_main_v2 (lidx_main_v3 (ix2 c d) k) = ix2 k c := fun k => funext fun a => Fin.ext (by
    match a with
    | ⟨0, _⟩ => rfl
    | ⟨1, _⟩ => rfl)
  have e2 : ∀ k : Fin 16384, ridx_main_v3 (ix2 c d) k = ix2 k d := fun k => funext fun a => Fin.ext (by
    match a with
    | ⟨0, _⟩ => rfl
    | ⟨1, _⟩ => rfl)
  have e3 : ∀ (n : Fin 16384) (k : Fin 10000), lidx_main_v0 (ix2 n d) k = ix2 n k := fun n k => funext fun a => Fin.ext (by
    match a with
    | ⟨0, _⟩ => rfl
    | ⟨1, _⟩ => rfl)
  have e4 : ∀ (n : Fin 16384) (k : Fin 10000), ridx_main_v0 (ix2 n d) k = ix2 k d := fun n k => funext fun a => Fin.ext (by
    match a with
    | ⟨0, _⟩ => rfl
    | ⟨1, _⟩ => rfl)
  have e5 : ∀ k : Fin 16384, idx_main_v4 (idx_main_v5 (idx_main_v6 (idx_main_v9 (ix2 c d))) k) = ix2 k c := fun k => funext fun a => Fin.ext (by
    match a with
    | ⟨0, _⟩ => rfl
    | ⟨1, _⟩ => rfl)
  rw [val_main_v13_apply, val_main_v12_apply, val_main_v11_apply, val_main_cst_1_apply, val_main_v10_apply, val_main_v3_apply,
    val_main_v9_apply, val_main_v8_apply, val_main_v6_apply, val_main_v5_apply, val_main_v7_apply, val_main_cst_0_apply,
    val_main_cst_apply]
  simp only [val_main_v2_apply, val_main_v1_apply, val_main_v0_apply, val_main_v4_apply, e1, e2, e3, e4, e5,
    Ideal.subf_def, Ideal.mulf_def, Ideal.addf_def, Ideal.hostDivf_def, Ideal.ofBits_def, Ideal.ofBits_zero_f32, zero_add,
    CenterUpdate.result, CenterUpdate.updated, CenterUpdate.gradient, CenterUpdate.count, CenterUpdate.residual]

end Cert.ReferenceIdeal.RefValue

end
-- ==== Proof.lean ====
/-
  The class-centre update: a kernel that accumulates over 128 blocks of samples against the whole-array reference.

  Both programs compute, at class `c` and coordinate `d`,
      Cn c d − half · (gradient c d / (count c + one)),
  where `gradient c d = ∑ n, L n c · ((∑ k, L n k · Cn k d) − P n d)` and `count c = ∑ n, L n c` over the 16384 samples
  (Proof/Spec.lean). The reference forms the two sums with whole-array products and one reduction (Proof/RefValue.lean). The
  kernel forms them as running totals over 128 grid points, each adding the share of one block of 128 samples
  (Proof/Payload.lean for one point's share, Proof/Pieces.lean for what each kind of point leaves in the carried buffers,
  Proof/Invariant.lean for the totals point by point), writes both totals out after the last point, and finishes with the same
  divide, scale and subtract as the reference (Proof/KernelValue.lean). Over the extended reals the sum over all samples
  equals the sum over the blocks of the sums inside the blocks, by commutativity and associativity of addition alone, so the
  inputs' finiteness is never used; the format changes around the kernel's products are the identity there, and the two
  constants are the same words on both sides.

  The three frame claims are the programs' runs with the result dropped; the idealized kernel is the kernel's own text read
  at the extended reals, so there is nothing to preserve.
-/
import proofs.«153631_j22136261443658_1_alg».proof.Defs
import proofs.«153631_j22136261443658_1_alg».proof.Proof.Gen.Kernel
import proofs.«153631_j22136261443658_1_alg».proof.Proof.Gen.Kernel.Frame
import proofs.«153631_j22136261443658_1_alg».proof.Proof.Gen.KernelIdeal
import proofs.«153631_j22136261443658_1_alg».proof.Proof.Gen.KernelIdeal.Frame
import proofs.«153631_j22136261443658_1_alg».proof.Proof.Gen.ReferenceIdeal
import proofs.«153631_j22136261443658_1_alg».proof.Proof.Gen.ReferenceIdeal.Run
import proofs.«153631_j22136261443658_1_alg».proof.Proof.Gen.ReferenceIdeal.Read
import proofs.«153631_j22136261443658_1_alg».proof.Proof.Gen.Pre_finite_inputs
import proofs.«153631_j22136261443658_1_alg».proof.Proof.KernelValue
import proofs.«153631_j22136261443658_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel ends with its result at the updated centres of its arguments, and so does the reference on
    arguments that agree. -/
theorem algebraic : Cert.algebraic_KernelIdeal_ReferenceIdeal := by
  intro m ρ m' ρ' _ hagree
  refine ⟨fun c => Cert.KernelIdeal.Acc.resultArr m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  funext j
  obtain ⟨cl, d, rfl⟩ : ∃ (cl : Fin 10000) (d : Fin 128), j = ValueIdx.ix2 cl d := ⟨j 0, j 1, ValueIdx.eq_ix2 j⟩
  rw [Cert.ReferenceIdeal.RefValue.reference_apply]
  show CenterUpdate.result _ _ _ cl d
    = CenterUpdate.result (Cert.KernelIdeal.Gen.V m c Cert.KernelIdeal.main_arg1) (Cert.KernelIdeal.Gen.V m c Cert.KernelIdeal.main_arg0)
        (Cert.KernelIdeal.Gen.V m c Cert.KernelIdeal.main_arg2) cl d
  rw [Cert.KernelIdeal.Gen.V_main_arg1, Cert.KernelIdeal.Gen.V_main_arg0, Cert.KernelIdeal.Gen.V_main_arg2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
